-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 40
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_cst : Ref sig .tc := ⟨.hbm, 73, rfl⟩
abbrev main_call0_v0 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NodeUpdate.lean ====
/-
  One node's update, as a function on the extended reals.

  A node with feature row `x` (128 entries) and neighbour-mean row `a` gets
      h j = ((∑ k, a k · W_l j k) + b_l j) + ∑ k, x k · W_r j k          (two linear maps, contracted on the last axis)
  then the row is centred and scaled by its own statistics,
      μ = (∑ j, h j) / 128,   σ² = (∑ j, (h j − μ)²) / 128,   n j = (h j − μ) · rsqrt (σ² + ε),
  and the result is `max (n j · γ j + β j) 0`.  The divisions are the extended reals' quotient by the real the word
  of 128.0 denotes, ε is the real the word of 1e-5 denotes, and `rsqrt` is the extended reals' inverse square root;
  nothing here depends on which reals those words denote, because both programs carry the same words.
-/
import Idealize.ShloMosaic.PureOps.Ideal
import Idealize.ShloMosaic.Lib.ValueIdx

noncomputable section

namespace Cert.NodeUpdate

open Idealize.ShloMosaic

/-- The row width as both programs write it: the word of `128.0`. -/
abbrev width : EReal := Ideal.ofBits .f32 0x43000000#32
/-- The variance offset as both programs write it: the word of `1e-5` rounded to f32. -/
abbrev offset : EReal := Ideal.ofBits .f32 0x3727C5AC#32

/-- The two linear maps and the bias: entry `j` of `a · W_lᵀ + b_l + x · W_rᵀ`, summed in that order. -/
def lin (x a : Fin 128 → EReal) (Wl Wr : Fin 128 → Fin 128 → EReal) (bl : Fin 128 → EReal) (j : Fin 128) : EReal :=
  ((∑ k : Fin 128, a k * Wl j k) + bl j) + ∑ k : Fin 128, x k * Wr j k

/-- A row's mean: its sum over the quotient by the width. -/
def avg (h : Fin 128 → EReal) : EReal := Ideal.div (∑ j : Fin 128, h j) width

/-- A row's variance about its mean. -/
def spread (h : Fin 128 → EReal) : EReal :=
  Ideal.div (∑ j : Fin 128, (h j - avg h) * (h j - avg h)) width

/-- The centred row scaled by the inverse square root of its offset variance. -/
def normed (h : Fin 128 → EReal) (j : Fin 128) : EReal :=
  (h j - avg h) * Ideal.rsqrt (spread h + offset)

/-- The node's new row: the normalized linear image, scaled and shifted per feature, negative entries cut to zero. -/
def rowOut (x a : Fin 128 → EReal) (Wl Wr : Fin 128 → Fin 128 → EReal) (bl g b : Fin 128 → EReal) (j : Fin 128) : EReal :=
  max (normed (lin x a Wl Wr bl) j * g j + b j) 0

end Cert.NodeUpdate

end
-- ==== Proof.KernelRow.lean ====
/-
  The kernel body's arithmetic, read at one row and one column of a block of 5000 rows.

  The body takes a block `X` of feature rows, the block `A` of the same rows of the neighbour means, the two weight
  matrices and the bias row, and forms  H = (A · W_lᵀ + b_l) + X · W_rᵀ  by two products contracted over the LAST
  axis of both factors into zero accumulators; the changes of float format on the way are the identity on the
  extended reals.  It then takes each row's mean and variance by lane sums over the 128 columns and returns the
  centred rows scaled by the inverse square root of the offset variance.  Read at row `p`, column `q`, that value
  depends on row `p` of `X` and of `A` only, and is `NodeUpdate.normed (NodeUpdate.lin …) q` of those two rows.
-/
import proofs.«180046_j13597866459873_1_alg».proof.Proof.Gen.KernelIdeal.Skeleton
import proofs.«180046_j13597866459873_1_alg».proof.Proof.NodeUpdate
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelRow

open Cert.KernelIdeal Cert.KernelIdeal.Gen Cert.NodeUpdate

/-! ## The product contracted over the last axis of both factors -/

/-- The left factor is read at the output's row … -/
theorem lhs_row (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
/-- … and at the contraction position on its last axis. -/
theorem lhs_contr (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- The right factor is read at the output's COLUMN on its first axis (its rows are the output features) … -/
theorem rhs_row (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
/-- … and at the contraction position on its last axis too. -/
theorem rhs_contr (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- Into a zero accumulator, entry `(p, j)` of the product is `∑ k, L (p, k) · R (j, k)`: `L · Rᵀ`. -/
theorem contract_last (L : FVec Ideal S5000x128 .bf16) (R : FVec Ideal S128x128 .bf16) (p : Fin 5000) (j : Fin 128) :
    matmul dot_S5000x128_S128x128_S5000x128_1_1_0_0_n_n none L R (constant S5000x128 .f32 0x00000000#32) (ix2 p j)
      = ∑ k : Fin 128, L (ix2 p k) * R (ix2 j k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p j) ((contrEquiv1 dot_S5000x128_S128x128_S5000x128_1_1_0_0_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_1_0_0_n_n.rhsIdx (ix2 p j) ((contrEquiv1 dot_S5000x128_S128x128_S5000x128_1_1_0_0_n_n 128 rfl rfl).symm k) = ix2 j k := funext fun a => Fin.ext (by
    match a with
    | ⟨0, _⟩ => exact rhs_row _ _
    | ⟨1, _⟩ => exact (rhs_contr _ _).trans hk)
  rw [el, er]

/-! ## A row's sum over the lanes, and the column shapes around it -/

/-- The sum over the second axis, from zero, at row `p`: the sum of that row's 128 entries. -/
theorem lane_sum (v : FVec Ideal S5000x128 .f32) (p : Fin 5000) :
    multiReduction .add [1] S5000 v 0x00000000#32 reduces_S5000x128_S5000 (.inl rfl) rfl (ix1 p)
      = ∑ j : Fin 128, v (ix2 p j) := by
  refine (Ideal.multiReduction_add_single v 0x00000000#32 reduces_S5000x128_S5000 (.inl rfl) rfl (ix1 p)).trans ?_
  refine Finset.sum_congr rfl fun j _ => ?_
  exact congrArg v (funext fun a => Fin.ext (by match a with | ⟨0, _⟩ => rfl | ⟨1, _⟩ => rfl))

/-- A vector of 5000 entries viewed as a column reads its entry `p` at `(p, 0)`. -/
theorem column_of {α : Type} (v : S5000.Idx → α) (p : Fin 5000) :
    shapeCast S5000x1 v shapeCasts_S5000_S5000x1 (ix2 p (0 : Fin 1)) = v (ix1 p) :=
  shapeCast_apply v shapeCasts_S5000_S5000x1 (ix2 p (0 : Fin 1)) (ix1 p)
    (by rewrite [Shape.rowMajor_val_one, Shape.rowMajor_val_two]; show p.val = p.val * 1 + 0; omega)

/-- A column spread over the 128 lanes reads, at `(p, q)`, its entry `(p, 0)`. -/
theorem spread_column {α : Type} (v : S5000x1.Idx → α) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => match a with
    | ⟨0, _⟩ => by show p.val = (if (5000 : Nat) = 1 then 0 else p.val); rw [if_neg (by decide)]
    | ⟨1, _⟩ => by show 0 = (if (1 : Nat) = 1 then 0 else q.val); rw [if_pos rfl])

/-! ## The body's two stages -/

/-- The block before normalization: the two contracted products and the bias row, added in the body's order. -/
def preBlock (X A : FVec Ideal S5000x128 .f32) (Wl Wr : FVec Ideal S128x128 .f32) (bl : FVec Ideal S1x128 .f32) :
    FVec Ideal S5000x128 .f32 :=
  addf (addf (matmul dot_S5000x128_S128x128_S5000x128_1_1_0_0_n_n none (truncf .bf16 (shapeCast S5000x128 A shapeCasts_S5000x128_S5000x128) bitsLt_bf16_f32)
        (truncf .bf16 Wl bitsLt_bf16_f32) (constant S5000x128 .f32 0x00000000#32))
      (broadcastTo S5000x128 (shapeCast S1x128 bl shapeCasts_S1x128_S1x128) broadcasts_S1x128_S5000x128))
    (matmul dot_S5000x128_S128x128_S5000x128_1_1_0_0_n_n none (truncf .bf16 X bitsLt_bf16_f32) (truncf .bf16 Wr bitsLt_bf16_f32) (constant S5000x128 .f32 0x00000000#32))

/-- Each row's lane sum over the width, as a column. -/
def rowAvg (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits (F := Ideal) .f32 0x43000000#32))

/-- The rows centred on their means. -/
def centred (H : FVec Ideal S5000x128 .f32) : FVec Ideal S5000x128 .f32 :=
  subf H (broadcastTo S5000x128 (rowAvg H) broadcasts_S5000x1_S5000x128)

/-- The centred rows scaled by the inverse square root of their offset variance. -/
def normBlock (H : FVec Ideal S5000x128 .f32) : FVec Ideal S5000x128 .f32 :=
  mulf (centred H) (broadcastTo S5000x128
    (rsqrt (addf (rowAvg (mulf (centred H) (centred H))) (broadcast S5000x1 (Scalar.ofBits (F := Ideal) .f32 0x3727C5AC#32))))
    broadcasts_S5000x1_S5000x128)

/-- The body's value before the per-feature scale and shift is these two stages composed: its operations, in order. -/
theorem pay4_stages (X A : Vec Ideal S5000x128 .f32) (Wl Wr : Vec Ideal S128x128 .f32) (bl : Vec Ideal S1x128 .f32) :
    k0_pay4 (F := Ideal) X A Wl Wr bl = normBlock (preBlock X A Wl Wr bl) := rfl

/-! ## The two stages read at a row and a column -/

/-- Entry `(p, j)` of the block before normalization is the linear image of row `p` of `X` and of `A`. -/
theorem preBlock_apply (X A : FVec Ideal S5000x128 .f32) (Wl Wr : FVec Ideal S128x128 .f32) (bl : FVec Ideal S1x128 .f32)
    (p : Fin 5000) (j : Fin 128) :
    preBlock X A Wl Wr bl (ix2 p j)
      = lin (fun k => X (ix2 p k)) (fun k => A (ix2 p k)) (fun j k => Wl (ix2 j k)) (fun j k => Wr (ix2 j k))
          (fun j => bl (ix2 (0 : Fin 1) j)) j := by
  unfold preBlock lin
  rw [addf_apply, addf_apply, contract_last, contract_last, broadcastTo_1b_ab_apply, shapeCast_self, shapeCast_self]
  rfl

/-- A row's lane sum over the width is the row's mean. -/
theorem rowAvg_apply (v : FVec Ideal S5000x128 .f32) (p : Fin 5000) :
    rowAvg v (ix2 p (0 : Fin 1)) = avg (fun j => v (ix2 p j)) := by
  unfold rowAvg avg
  rw [divf_apply, column_of, lane_sum]
  rfl

/-- A centred entry is the entry less its row's mean. -/
theorem centred_apply (H : FVec Ideal S5000x128 .f32) (p : Fin 5000) (q : Fin 128) :
    centred H (ix2 p q) = H (ix2 p q) - avg (fun j => H (ix2 p j)) := by
  unfold centred
  rw [subf_apply, spread_column, rowAvg_apply]

/-- The mean of a row's squared centred entries is the row's variance. -/
theorem sq_avg (H : FVec Ideal S5000x128 .f32) (p : Fin 5000) :
    avg (fun j => mulf (centred H) (centred H) (ix2 p j)) = spread (fun j => H (ix2 p j)) := by
  unfold spread
  show Ideal.div (∑ j : Fin 128, mulf (centred H) (centred H) (ix2 p j)) width = _
  refine congrArg (Ideal.div · width) (Finset.sum_congr rfl fun j _ => ?_)
  rw [mulf_apply, centred_apply]

/-- Entry `(p, q)` of the normalized block is the normalization of row `p` at column `q`. -/
theorem normBlock_apply (H : FVec Ideal S5000x128 .f32) (p : Fin 5000) (q : Fin 128) :
    normBlock H (ix2 p q) = normed (fun j => H (ix2 p j)) q := by
  unfold normBlock normed
  rw [mulf_apply, spread_column, centred_apply]
  show _ * Ideal.rsqrt (rowAvg (mulf (centred H) (centred H)) (ix2 p (0 : Fin 1)) + offset) = _
  rw [rowAvg_apply, sq_avg]

/-- The body's value before the per-feature scale and shift, at row `p` and column `q` of the block: the
    normalized linear image of row `p` of the two row blocks. -/
theorem pay4_apply (X A : Vec Ideal S5000x128 .f32) (Wl Wr : Vec Ideal S128x128 .f32) (bl : Vec Ideal S1x128 .f32)
    (p : Fin 5000) (q : Fin 128) :
    k0_pay4 (F := Ideal) X A Wl Wr bl (ix2 p q)
      = normed (lin (fun k => X (ix2 p k)) (fun k => A (ix2 p k)) (fun j k => Wl (ix2 j k)) (fun j k => Wr (ix2 j k))
          (fun j => bl (ix2 (0 : Fin 1) j))) q := by
  rw [pay4_stages, normBlock_apply]
  exact congrArg (fun h => normed h q) (funext fun j => preBlock_apply X A Wl Wr bl p j)

end Cert.KernelRow

end
-- ==== Proof.KernelBlocks.lean ====
/-
  From what each grid point writes back to the whole output array.

  The grid has ten points; point `t` stages rows `5000·t … 5000·t + 4999` of the features and of the neighbour means,
  the two weight matrices and the three parameter rows whole, and writes rows `5000·t …` of the output.  A node's
  update depends on its own row of the features and of the means only, so the block a point writes is the same block
  of ONE whole-array function (`layer`): each output row is `NodeUpdate.rowOut` of that node's two rows.  The ten
  blocks tile the 50000 rows, so the array after the run is that function of the arrays the region found.
-/
import proofs.«180046_j13597866459873_1_alg».proof.Proof.Gen.KernelIdeal.Value
import proofs.«180046_j13597866459873_1_alg».proof.Proof.KernelRow
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen Cert.NodeUpdate Cert.KernelRow

theorem zeros : (![0, 0] : Fin 2 → Nat) = fun _ => 0 := funext fun a => by fin_cases a <;> rfl

/-! ## The body's result on seven blocks, at a row and a column -/

theorem body_at (p : Fin 5000) (q : Fin 128) : Cert.KernelIdeal.Value.ix7_0 (ix2 p q) = ix2 p q :=
  funext fun a => Fin.ext (by match a with | ⟨0, _⟩ => rfl | ⟨1, _⟩ => rfl)
theorem scale_at (p : Fin 5000) (q : Fin 128) : Cert.KernelIdeal.Value.ix7_1 (ix2 p q) = ix2 (0 : Fin 1) q :=
  funext fun a => Fin.ext (by match a with | ⟨0, _⟩ => rfl | ⟨1, _⟩ => rfl)
theorem shift_at (p : Fin 5000) (q : Fin 128) : Cert.KernelIdeal.Value.ix7_2 (ix2 p q) = ix2 (0 : Fin 1) q :=
  funext fun a => Fin.ext (by match a with | ⟨0, _⟩ => rfl | ⟨1, _⟩ => rfl)

/-- What the body leaves in the output block, from any seven input blocks, at row `p` and column `q`: the node update
    of row `p` of the two row blocks. -/
theorem out_block_apply (x0 x1 : Vec Ideal S5000x128 .f32) (x2 : Vec Ideal S128x128 .f32) (x3 : Vec Ideal S1x128 .f32)
    (x4 : Vec Ideal S128x128 .f32) (x5 x6 : Vec Ideal S1x128 .f32) (p : Fin 5000) (q : Fin 128) :
    out0_7 x0 x1 x2 x3 x4 x5 x6 (ix2 p q)
      = rowOut (fun k => x0 (ix2 p k)) (fun k => x1 (ix2 p k)) (fun j k => x2 (ix2 j k)) (fun j k => x4 (ix2 j k))
          (fun j => x3 (ix2 (0 : Fin 1) j)) (fun j => x5 (ix2 (0 : Fin 1) j)) (fun j => x6 (ix2 (0 : Fin 1) j)) q := by
  unfold out0_7
  rw [Cert.KernelIdeal.Value.canon7_eq]
  simp only [View.ld_unit_zero (S := S5000x128) zeros, View.ld_unit_zero (S := S128x128) zeros, View.ld_unit_zero (S := S1x128) zeros]
  show max (k0_pay4 (F := Ideal) x0 x1 x2 x4 x3 (Cert.KernelIdeal.Value.ix7_0 (ix2 p q)) * x5 (Cert.KernelIdeal.Value.ix7_1 (ix2 p q))
      + x6 (Cert.KernelIdeal.Value.ix7_2 (ix2 p q))) (Ideal.ofBits .f32 0x00000000#32) = _
  rw [body_at, scale_at, shift_at, pay4_apply, Ideal.ofBits_zero_f32]
  rfl

/-! ## The whole-array function -/

/-- Node `r`'s update at feature `q`, from whole arrays: row `r` of the features and of the neighbour means, the weight
    matrices, and the three parameter vectors as rows. -/
def layerAt (X A : S50000x128.Idx → EReal) (Wl Wr : S128x128.Idx → EReal) (bl g b : S1x128.Idx → EReal)
    (r : Fin 50000) (q : Fin 128) : EReal :=
  rowOut (fun k => X (ix2 r k)) (fun k => A (ix2 r k)) (fun j k => Wl (ix2 j k)) (fun j k => Wr (ix2 j k))
    (fun j => bl (ix2 (0 : Fin 1) j)) (fun j => g (ix2 (0 : Fin 1) j)) (fun j => b (ix2 (0 : Fin 1) j)) q

/-- The layer's output array: every node's update. -/
def layer (X A : S50000x128.Idx → EReal) (Wl Wr : S128x128.Idx → EReal) (bl g b : S1x128.Idx → EReal) :
    S50000x128.Idx → EReal :=
  fun i => layerAt X A Wl Wr bl g b (i 0) (i 1)

/-- A block of rows starting at row `base`: if the two row blocks are those rows of `X` and `A` and the other five
    blocks are the whole arrays, the body's result at `y` is the layer's output at the array index over `y`. -/
theorem block_eq (X A : S50000x128.Idx → EReal) (Wl Wr : S128x128.Idx → EReal) (bl g b : S1x128.Idx → EReal)
    (x0 x1 : Vec Ideal S5000x128 .f32) (x2 : Vec Ideal S128x128 .f32) (x3 : Vec Ideal S1x128 .f32)
    (x4 : Vec Ideal S128x128 .f32) (x5 x6 : Vec Ideal S1x128 .f32) (base : Nat)
    (h0 : ∀ (y : S5000x128.Idx) (i : S50000x128.Idx), (i 0).val = base + (y 0).val → (i 1).val = (y 1).val → x0 y = X i)
    (h1 : ∀ (y : S5000x128.Idx) (i : S50000x128.Idx), (i 0).val = base + (y 0).val → (i 1).val = (y 1).val → x1 y = A i)
    (h2 : x2 = Wl) (h3 : x3 = bl) (h4 : x4 = Wr) (h5 : x5 = g) (h6 : x6 = b)
    (y : S5000x128.Idx) (i : S50000x128.Idx) (hi0 : (i 0).val = base + (y 0).val) (hi1 : (i 1).val = (y 1).val) :
    out0_7 x0 x1 x2 x3 x4 x5 x6 y = layer X A Wl Wr bl g b i := by
  subst h2 h3 h4 h5 h6
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq
  rw [out_block_apply]
  have e0 : (fun k : Fin 128 => x0 (ix2 p k)) = fun k => X (ix2 r k) := funext fun k => h0 (ix2 p k) (ix2 r k) hi0 rfl
  have e1 : (fun k : Fin 128 => x1 (ix2 p k)) = fun k => A (ix2 r k) := funext fun k => h1 (ix2 p k) (ix2 r k) hi0 rfl
  rw [e0, e1]
  rfl

/-! ## The blocks the grid points stage -/

variable (m : (ℓ : Loc nD τ sig) → Buf (Elt Ideal) ℓ) (ρ : Dev nD → PrngReg)

/-- The layer's output from the arrays as the region finds them. -/
abbrev entry (c : Dev nD) : S50000x128.Idx → EReal :=
  layer (V m c main_arg0) (V m c main_v22) (V m c main_arg2) (V m c main_arg4) (V m c main_v23) (V m c main_v24) (V m c main_v25)

/-- The printed index maps over the ten points: the two row windows move with the output down the rows, every other
    block index is zero. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every row block is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-- Point `t`'s block of the features is rows `5000·(block index) …` of the array. -/
theorem x_block (c : Dev nD) (t : Fin cfg0.N) (y : S5000x128.Idx) (i : S50000x128.Idx)
    (hi0 : (i 0).val = win0_7.index t (0 : Fin 2) * 5000 + (y 0).val) (hi1 : (i 1).val = (y 1).val) :
    (iblk m c 0 t : Vec Ideal S5000x128 .f32) y = (V m c main_arg0 : S50000x128.Idx → EReal) i := by
  obtain ⟨e0, e1, -⟩ := idx_facts t
  unfold iblk
  rw [View.read_apply]
  show V m c main_arg0 _ = V m c main_arg0 i
  refine congrArg (V m c main_arg0) ?_
  funext a; apply Fin.ext
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- Its block of the neighbour means likewise. -/
theorem a_block (c : Dev nD) (t : Fin cfg0.N) (y : S5000x128.Idx) (i : S50000x128.Idx)
    (hi0 : (i 0).val = win0_7.index t (0 : Fin 2) * 5000 + (y 0).val) (hi1 : (i 1).val = (y 1).val) :
    (iblk m c 1 t : Vec Ideal S5000x128 .f32) y = (V m c main_v22 : S50000x128.Idx → EReal) i := by
  obtain ⟨-, -, e0, e1, -⟩ := idx_facts t
  unfold iblk
  rw [View.read_apply]
  show V m c main_v22 _ = V m c main_v22 i
  refine congrArg (V m c main_v22) ?_
  funext a; apply Fin.ext
  match a with
  | ⟨0, _⟩ => show win0_1.index t (0 : Fin 2) * 5000 + 1 * (y 0).val = (i 0).val; rw [e0, hi0]; omega
  | ⟨1, _⟩ => show win0_1.index t (1 : Fin 2) * 128 + 1 * (y 1).val = (i 1).val; rw [e1, hi1]; omega

/-- The weight matrices and the parameter rows are staged whole at every point. -/
theorem wl_block (c : Dev nD) (t : Fin cfg0.N) : (iblk m c 2 t : Vec Ideal S128x128 .f32) = (V m c main_arg2 : S128x128.Idx → EReal) := by
  obtain ⟨-, -, -, -, -, e0, e1, -⟩ := idx_facts t
  funext y
  unfold iblk
  rw [View.read_apply]
  show V m c main_arg2 _ = V m c main_arg2 y
  refine congrArg (V m c main_arg2) ?_
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem bl_block (c : Dev nD) (t : Fin cfg0.N) : (iblk m c 3 t : Vec Ideal S1x128 .f32) = (V m c main_v23 : S1x128.Idx → EReal) := by
  obtain ⟨-, -, -, -, -, -, -, e0, e1, -⟩ := idx_facts t
  funext y
  unfold iblk
  rw [View.read_apply]
  show V m c main_v23 _ = V m c main_v23 y
  refine congrArg (V m c main_v23) ?_
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega
theorem wr_block (c : Dev nD) (t : Fin cfg0.N) : (iblk m c 4 t : Vec Ideal S128x128 .f32) = (V m c main_arg4 : S128x128.Idx → EReal) := by
  obtain ⟨-, -, -, -, -, -, -, -, -, e0, e1, -⟩ := idx_facts t
  funext y
  unfold iblk
  rw [View.read_apply]
  show V m c main_arg4 _ = V m c main_arg4 y
  refine congrArg (V m c main_arg4) ?_
  funext a; apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem g_block (c : Dev nD) (t : Fin cfg0.N) : (iblk m c 5 t : Vec Ideal S1x128 .f32) = (V m c main_v24 : S1x128.Idx → EReal) := by
  obtain ⟨-, -, -, -, -, -, -, -, -, -, -, e0, e1, -⟩ := idx_facts t
  funext y
  unfold iblk
  rw [View.read_apply]
  show V m c main_v24 _ = V m c main_v24 y
  refine congrArg (V m c main_v24) ?_
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega
theorem b_block (c : Dev nD) (t : Fin cfg0.N) : (iblk m c 6 t : Vec Ideal S1x128 .f32) = (V m c main_v25 : S1x128.Idx → EReal) := by
  obtain ⟨-, -, -, -, -, -, -, -, -, -, -, -, -, e0, e1⟩ := idx_facts t
  funext y
  unfold iblk
  rw [View.read_apply]
  show V m c main_v25 _ = V m c main_v25 y
  refine congrArg (V m c main_v25) ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-! ## What a point writes back, the cover, the array after the run -/

/-- What point `t` writes back is its block of the layer's output. -/
theorem flushed_eq (c : Dev nD) (t : Fin cfg0.N) :
    (dats m 0 c).flushed 7 t = ((cfg0.win 7).blk t).view.read (Elt Ideal) (entry m c) := by
  rw [Cert.KernelIdeal.Value.flushed7]
  obtain ⟨-, -, -, -, e71, -⟩ := idx_facts t
  funext y
  rw [View.read_apply]
  show out0_7 (iblk m c 0 t) (iblk m c 1 t) (iblk m c 2 t) (iblk m c 3 t) (iblk m c 4 t) (iblk m c 5 t) (iblk m c 6 t) y
    = entry m c (((cfg0.win 7).blk t).view.emb y)
  exact block_eq (V m c main_arg0) (V m c main_v22) (V m c main_arg2) (V m c main_arg4) (V m c main_v23) (V m c main_v24) (V m c main_v25)
    (iblk m c 0 t) (iblk m c 1 t) (iblk m c 2 t) (iblk m c 3 t) (iblk m c 4 t) (iblk m c 5 t) (iblk m c 6 t)
    (win0_7.index t (0 : Fin 2) * 5000)
    (fun y i h0 h1 => x_block m c t y i h0 h1) (fun y i h0 h1 => a_block m c t y i h0 h1)
    (wl_block m c t) (bl_block m c t) (wr_block m c t) (g_block m c t) (b_block m c t)
    y (((cfg0.win 7).blk t).view.emb y)
    (by show win0_7.index t (0 : Fin 2) * 5000 + 1 * (y 0).val = win0_7.index t (0 : Fin 2) * 5000 + (y 0).val; omega)
    (by show win0_7.index t (1 : Fin 2) * 128 + 1 * (y 1).val = (y 1).val; rw [e71]; omega)

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v26).slice (win0_7.rect t)).set ↔ _
  rw [View.set_slice_whole, Rect.mem_set_unit]
  exact Iff.rfl

/-- The ten blocks tile the rows, so after the run the output array is the layer's output. -/
theorem final (c : Dev nD) : (dats m 0 c).arrAt 7 cfg0.N = entry m c :=
  (dats m 0 c).arrAt_eq_of_cover 7 (entry m c) (fun t _ => flushed_eq m c t) fun i => by
    have hi0 : (i 0).val < 50000 := (i 0).isLt
    have hi1 : (i 1).val < 128 := (i 1).isLt
    obtain ⟨t, ht⟩ := idx_onto ⟨(i 0).val / 5000, by omega⟩
    have q0 : win0_7.index t (0 : Fin 2) = (i 0).val / 5000 := congrFun ht 0
    have q1 : win0_7.index t (1 : Fin 2) = 0 := congrFun ht 1
    refine ⟨t, flush0_7 t, ?_⟩
    rw [mem_blk]
    intro a
    match a with
    | ⟨0, _⟩ => show win0_7.index t (0 : Fin 2) * 5000 ≤ (i 0).val ∧ (i 0).val < win0_7.index t (0 : Fin 2) * 5000 + 5000; omega
    | ⟨1, _⟩ => show win0_7.index t (1 : Fin 2) * 128 ≤ (i 1).val ∧ (i 1).val < win0_7.index t (1 : Fin 2) * 128 + 128; omega

/-- The kernel's run, read: the result array is the layer's output of the arrays the region found; the arguments are
    unchanged. -/
theorem run : θ_run defs (onTc (τ := τ) (main (F := Ideal))) ⟨m, fun _ => 0, ρ⟩ fun r => ∀ c : Dev nD,
      r.2.mem ((c : Thread nD τ).loc main_v26) = entry m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelBlocks

end
-- ==== Proof.RefRow.lean ====
/-
  The reference's stages from the neighbour mean onward, read at one node `r` and one feature `q`.

  After the neighbour mean `A` (stage %22, kept as one opaque function of the features and the edge list), the reference
  forms  H = (A · W_lᵀ + b_l) + X · W_rᵀ  by two products with the TRANSPOSED weights contracted over their first axis —
  entry `(r, j)` is `∑ k, A (r, k) · W_l (j, k)` and likewise for `X` and `W_r` —, then each row's mean and variance by
  host sums from zero over the 128 features, the centred row times the inverse square root of the offset variance, the
  per-feature scale and shift, and the cut at zero.  Each stage is read through the one-operation lemmas of the
  reference's run; the result at `(r, q)` is `NodeUpdate.rowOut` of row `r` of `X` and of `A`.
-/
import proofs.«180046_j13597866459873_1_alg».proof.Proof.Gen.ReferenceIdeal.Read
import proofs.«180046_j13597866459873_1_alg».proof.Proof.NodeUpdate
import Idealize.ShloMosaic.Lib.ValueIdx
import Idealize.ShloMosaic.PureOps.Ideal.Laws

noncomputable section

open Idealize.ShloMosaic Idealize.ShloMosaic.ValueIdx

namespace Cert.RefRow

open Cert.ReferenceIdeal Cert.ReferenceIdeal.Read Cert.NodeUpdate

/-! ## Where each stage reads its operand -/

section Indices
variable (r : Fin 50000) (j k : Fin 128)

theorem lhs_at : lidx_main_v24 (ix2 r j) k = ix2 r k :=
  funext fun a => Fin.ext (by match a with | ⟨0, _⟩ => rfl | ⟨1, _⟩ => rfl)
theorem wl_at : idx_main_v23 (ridx_main_v24 (ix2 r j) k) = ix2 j k :=
  funext fun a => Fin.ext (by match a with | ⟨0, _⟩ => rfl | ⟨1, _⟩ => rfl)
theorem lhs_at' : lidx_main_v29 (ix2 r j) k = ix2 r k :=
  funext fun a => Fin.ext (by match a with | ⟨0, _⟩ => rfl | ⟨1, _⟩ => rfl)
theorem wr_at : idx_main_v28 (ridx_main_v29 (ix2 r j) k) = ix2 j k :=
  funext fun a => Fin.ext (by match a with | ⟨0, _⟩ => rfl | ⟨1, _⟩ => rfl)
theorem bl_at : idx_main_v25 (idx_main_v26 (ix2 r j)) = ix1 j :=
  funext fun a => Fin.ext (by match a with | ⟨0, _⟩ => rfl)
theorem g_at : idx_main_v49 (idx_main_v50 (ix2 r j)) = ix1 j :=
  funext fun a => Fin.ext (by match a with | ⟨0, _⟩ => rfl)
theorem b_at : idx_main_v52 (idx_main_v53 (ix2 r j)) = ix1 j :=
  funext fun a => Fin.ext (by match a with | ⟨0, _⟩ => rfl)
theorem sum_at : idx_main_v31 (idx_main_v32 (ix2 r (0 : Fin 1))) k = ix2 r k :=
  funext fun a => Fin.ext (by match a with | ⟨0, _⟩ => rfl | ⟨1, _⟩ => rfl)
theorem sum_at' : idx_main_v38 (idx_main_v39 (ix2 r (0 : Fin 1))) k = ix2 r k :=
  funext fun a => Fin.ext (by match a with | ⟨0, _⟩ => rfl | ⟨1, _⟩ => rfl)
theorem col_at : idx_main_v35 (ix2 r j) = ix2 r (0 : Fin 1) :=
  funext fun a => Fin.ext (by match a with | ⟨0, _⟩ => rfl | ⟨1, _⟩ => rfl)
theorem col_at' : idx_main_v42 (ix2 r j) = ix2 r (0 : Fin 1) :=
  funext fun a => Fin.ext (by match a with | ⟨0, _⟩ => rfl | ⟨1, _⟩ => rfl)
theorem col_at'' : idx_main_v47 (ix2 r j) = ix2 r (0 : Fin 1) :=
  funext fun a => Fin.ext (by match a with | ⟨0, _⟩ => rfl | ⟨1, _⟩ => rfl)

end Indices

section Stages
variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (r : Fin 50000) (q : Fin 128)

/-- Stage %30 at `(r, j)`: the linear image of row `r` of the features and of the neighbour means. -/
theorem lin_at (j : Fin 128) :
    val_main_v30 (F := Ideal) x0 x1 x2 x3 x4 (ix2 r j)
      = lin (fun k => x0 (ix2 r k)) (fun k => val_main_v22 (F := Ideal) x0 x1 (ix2 r k)) (fun j k => x2 (ix2 j k))
          (fun j k => x4 (ix2 j k)) (fun j => x3 (ix1 j)) j := by
  rw [val_main_v30_apply, val_main_v27_apply, val_main_v24_apply, val_main_v26_apply, val_main_v25_apply, val_main_v29_apply]
  simp only [val_main_v23_apply, val_main_v28_apply, lhs_at, wl_at, lhs_at', wr_at, bl_at]
  rfl

/-- Stage %34 at `(r, 0)`: the mean of row `r` of stage %30. -/
theorem avg_at :
    val_main_v34 (F := Ideal) x0 x1 x2 x3 x4 (ix2 r (0 : Fin 1)) = avg (fun j => val_main_v30 (F := Ideal) x0 x1 x2 x3 x4 (ix2 r j)) := by
  rw [val_main_v34_apply, val_main_v32_apply, val_main_v31_apply, val_main_v33_apply, val_main_cst_5_apply, val_main_cst_4_apply]
  simp only [sum_at, Ideal.hostDivf_def, Ideal.ofBits_def, Ideal.ofBits_zero_f32, zero_add]
  rfl

/-- Stages %36 and %43 at `(r, q)`: the entry less its row's mean. -/
theorem centred_at :
    val_main_v36 (F := Ideal) x0 x1 x2 x3 x4 (ix2 r q)
      = val_main_v30 (F := Ideal) x0 x1 x2 x3 x4 (ix2 r q) - avg (fun j => val_main_v30 (F := Ideal) x0 x1 x2 x3 x4 (ix2 r j)) := by
  rw [val_main_v36_apply, val_main_v35_apply, col_at, avg_at]
  rfl
theorem centred_at' :
    val_main_v43 (F := Ideal) x0 x1 x2 x3 x4 (ix2 r q)
      = val_main_v30 (F := Ideal) x0 x1 x2 x3 x4 (ix2 r q) - avg (fun j => val_main_v30 (F := Ideal) x0 x1 x2 x3 x4 (ix2 r j)) := by
  rw [val_main_v43_apply, val_main_v42_apply, col_at', avg_at]
  rfl

/-- Stage %41 at `(r, 0)`: the variance of row `r` of stage %30. -/
theorem spread_at :
    val_main_v41 (F := Ideal) x0 x1 x2 x3 x4 (ix2 r (0 : Fin 1)) = spread (fun j => val_main_v30 (F := Ideal) x0 x1 x2 x3 x4 (ix2 r j)) := by
  rw [val_main_v41_apply, val_main_v39_apply, val_main_v38_apply, val_main_v40_apply, val_main_cst_7_apply, val_main_cst_6_apply]
  simp only [sum_at', val_main_v37_apply, centred_at, Ideal.hostDivf_def, Ideal.ofBits_def, Ideal.ofBits_zero_f32, zero_add, Ideal.mulf_def]
  rfl

/-- Stage %48 at `(r, q)`: the normalization of row `r` of stage %30 at feature `q`. -/
theorem normed_at :
    val_main_v48 (F := Ideal) x0 x1 x2 x3 x4 (ix2 r q) = normed (fun j => val_main_v30 (F := Ideal) x0 x1 x2 x3 x4 (ix2 r j)) q := by
  rw [val_main_v48_apply, centred_at', val_main_v47_apply, col_at'', val_main_v46_apply, val_main_v45_apply, spread_at,
    val_main_v44_apply, val_main_cst_8_apply]
  rfl

/-- The reference's result at `(r, q)`: the node update of row `r` of the features and of the neighbour means. -/
theorem out_at :
    val_main_v55 (F := Ideal) x0 x1 x2 x3 x4 x5 x6 (ix2 r q)
      = rowOut (fun k => x0 (ix2 r k)) (fun k => val_main_v22 (F := Ideal) x0 x1 (ix2 r k)) (fun j k => x2 (ix2 j k))
          (fun j k => x4 (ix2 j k)) (fun j => x3 (ix1 j)) (fun j => x5 (ix1 j)) (fun j => x6 (ix1 j)) q := by
  rw [val_main_v55_apply, val_main_v54_apply, val_main_v51_apply, normed_at, val_main_v50_apply, val_main_v49_apply, g_at,
    val_main_v53_apply, val_main_v52_apply, b_at, val_main_call0_v0_apply, val_main_call0_cst_apply]
  unfold rowOut
  rw [show (fun j => val_main_v30 (F := Ideal) x0 x1 x2 x3 x4 (ix2 r j))
        = lin (fun k => x0 (ix2 r k)) (fun k => val_main_v22 (F := Ideal) x0 x1 (ix2 r k)) (fun j k => x2 (ix2 j k))
            (fun j k => x4 (ix2 j k)) (fun j => x3 (ix1 j)) from funext fun j => lin_at x0 x1 x2 x3 x4 r j]
  simp only [Ideal.maximumf_def, Ideal.addf_def, Ideal.mulf_def, Ideal.ofBits_def, Ideal.ofBits_zero_f32]

end Stages

end Cert.RefRow

end
-- ==== Proof.EntryArrays.lean ====
/-
  The arrays the kernel's region finds that @main computed before it.

  Four of the region's operands are not arguments: the neighbour mean (the gather of the source rows, their
  scatter-added sum per target, the edge count per target raised to at least one, the quotient), and the bias, scale and
  shift vectors viewed as one row.  The first is the SAME chain of host operations the reference applies to the same two
  arguments, so it is carried whole, as the reference's own stage of the features and the edge list, and never opened.
  Each of the other three, read at `(0, j)`, is the argument vector at `j`.
-/
import proofs.«180046_j13597866459873_1_alg».proof.Proof.Gen.KernelIdeal.Frame
import proofs.«180046_j13597866459873_1_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.StableHlo Idealize.ShloMosaic.ValueIdx

namespace Cert.EntryArrays

open Cert.KernelIdeal Cert.KernelIdeal.Gen

variable (m : (ℓ : Loc nD τ sig) → Buf (Elt Ideal) ℓ) (c : Dev nD)

set_option maxHeartbeats 4000000 in
/-- The neighbour mean the region finds is the reference's neighbour-mean stage of the same features and edge list:
    operation for operation the same chain. -/
theorem mean_eq :
    (V m c main_v22 : S50000x128.Idx → EReal)
      = Cert.ReferenceIdeal.Read.val_main_v22 (F := Ideal) (m ((c.tc : Thread nD τ).loc main_arg0)) (m ((c.tc : Thread nD τ).loc main_arg1)) := by
  show StableHlo.after hostOps0 (fun b => m (c, b)) (Proc.devRef .tc main_v22) = _
  unfold hostOps0
  after_results_simp
  rfl

set_option maxHeartbeats 4000000 in
/-- The bias row the region finds is the bias vector with a unit axis in front. -/
theorem bias_row (j : Fin 128) :
    (V m c main_v23 : S1x128.Idx → EReal) (ix2 (0 : Fin 1) j) = ((m ((c.tc : Thread nD τ).loc main_arg3)) : S128.Idx → EReal) (ix1 j) := by
  have e : (V m c main_v23 : S1x128.Idx → EReal)
      = shapeCast S1x128 ((m ((c.tc : Thread nD τ).loc main_arg3)) : S128.Idx → EReal) shapeCasts_S128_S1x128 := by
    show StableHlo.after hostOps0 (fun b => m (c, b)) (Proc.devRef .tc main_v23) = _
    unfold hostOps0
    after_results_simp
    rfl
  rw [e]
  exact shapeCast_a_1a_apply _ _ (0 : Fin 1) j

set_option maxHeartbeats 4000000 in
/-- The scale row likewise. -/
theorem scale_row (j : Fin 128) :
    (V m c main_v24 : S1x128.Idx → EReal) (ix2 (0 : Fin 1) j) = ((m ((c.tc : Thread nD τ).loc main_arg5)) : S128.Idx → EReal) (ix1 j) := by
  have e : (V m c main_v24 : S1x128.Idx → EReal)
      = shapeCast S1x128 ((m ((c.tc : Thread nD τ).loc main_arg5)) : S128.Idx → EReal) shapeCasts_S128_S1x128 := by
    show StableHlo.after hostOps0 (fun b => m (c, b)) (Proc.devRef .tc main_v24) = _
    unfold hostOps0
    after_results_simp
    rfl
  rw [e]
  exact shapeCast_a_1a_apply _ _ (0 : Fin 1) j

set_option maxHeartbeats 4000000 in
/-- The shift row likewise. -/
theorem shift_row (j : Fin 128) :
    (V m c main_v25 : S1x128.Idx → EReal) (ix2 (0 : Fin 1) j) = ((m ((c.tc : Thread nD τ).loc main_arg6)) : S128.Idx → EReal) (ix1 j) := by
  have e : (V m c main_v25 : S1x128.Idx → EReal)
      = shapeCast S1x128 ((m ((c.tc : Thread nD τ).loc main_arg6)) : S128.Idx → EReal) shapeCasts_S128_S1x128 := by
    show StableHlo.after hostOps0 (fun b => m (c, b)) (Proc.devRef .tc main_v25) = _
    unfold hostOps0
    after_results_simp
    rfl
  rw [e]
  exact shapeCast_a_1a_apply _ _ (0 : Fin 1) j

end Cert.EntryArrays

end
-- ==== Proof.Bridge.lean ====
/-
  The two results are one array.

  The reference's result, as its last stage of the seven arguments, and the layer's output of the arrays the kernel's
  region finds, agree index by index: at node `r` and feature `q` both are `NodeUpdate.rowOut` of row `r` of the
  features and of the neighbour means, the two weight matrices and the three parameter vectors — the kernel's
  neighbour mean IS the reference's stage of the same arguments, its three parameter rows read the argument vectors,
  and the arrays no host operation writes are found as launched.
-/
import proofs.«180046_j13597866459873_1_alg».proof.Proof.KernelBlocks
import proofs.«180046_j13597866459873_1_alg».proof.Proof.RefRow
import proofs.«180046_j13597866459873_1_alg».proof.Proof.EntryArrays

noncomputable section

open Idealize.ShloMosaic Idealize.ShloMosaic.TcCoe Idealize.SL.Sem Idealize.ShloMosaic.ValueIdx

namespace Cert.Bridge

open Cert.NodeUpdate Cert.KernelIdeal Cert.KernelIdeal.Gen

/-- The layer's output at node `r`, feature `q`, when its seven arrays are known: the two row arrays and the two weight
    matrices by name, the three parameter rows by what they hold at `(0, j)`. -/
theorem layer_at (X A : S50000x128.Idx → EReal) (Wl Wr : S128x128.Idx → EReal) (bl g b : S1x128.Idx → EReal)
    (X' A' : S50000x128.Idx → EReal) (Wl' Wr' : S128x128.Idx → EReal) (bl' g' b' : Fin 128 → EReal)
    (hX : X = X') (hA : A = A') (hWl : Wl = Wl') (hWr : Wr = Wr')
    (hbl : ∀ j : Fin 128, bl (ix2 (0 : Fin 1) j) = bl' j) (hg : ∀ j : Fin 128, g (ix2 (0 : Fin 1) j) = g' j)
    (hb : ∀ j : Fin 128, b (ix2 (0 : Fin 1) j) = b' j) (r : Fin 50000) (q : Fin 128) :
    Cert.KernelBlocks.layer X A Wl Wr bl g b (ix2 r q)
      = rowOut (fun k => X' (ix2 r k)) (fun k => A' (ix2 r k)) (fun j k => Wl' (ix2 j k)) (fun j k => Wr' (ix2 j k)) bl' g' b' q := by
  subst hX hA hWl hWr
  have e1 : (fun j : Fin 128 => bl (ix2 (0 : Fin 1) j)) = bl' := funext hbl
  have e2 : (fun j : Fin 128 => g (ix2 (0 : Fin 1) j)) = g' := funext hg
  have e3 : (fun j : Fin 128 => b (ix2 (0 : Fin 1) j)) = b' := funext hb
  show rowOut (fun k => X (ix2 r k)) (fun k => A (ix2 r k)) (fun j k => Wl (ix2 j k)) (fun j k => Wr (ix2 j k))
      (fun j => bl (ix2 (0 : Fin 1) j)) (fun j => g (ix2 (0 : Fin 1) j)) (fun j => b (ix2 (0 : Fin 1) j)) q = _
  rw [e1, e2, e3]

variable (m : (ℓ : Loc nD τ sig) → Buf (Elt Ideal) ℓ) (c : Dev nD)

/-- The reference's last stage of the kernel's own arguments is the layer's output of the arrays the region finds. -/
theorem result_eq :
    Cert.ReferenceIdeal.Read.val_main_v55 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      = Cert.KernelBlocks.entry m c := by
  funext i
  obtain ⟨r, q, rfl⟩ : ∃ (r : Fin 50000) (q : Fin 128), i = ix2 r q := ⟨i 0, i 1, eq_ix2 i⟩
  rw [Cert.RefRow.out_at]
  exact (layer_at (V m c main_arg0) (V m c main_v22) (V m c main_arg2) (V m c main_arg4) (V m c main_v23) (V m c main_v24) (V m c main_v25)
    (m ((c.tc : Thread nD τ).loc main_arg0))
    (Cert.ReferenceIdeal.Read.val_main_v22 (F := Ideal) (m ((c.tc : Thread nD τ).loc main_arg0)) (m ((c.tc : Thread nD τ).loc main_arg1)))
    (m ((c.tc : Thread nD τ).loc main_arg2)) (m ((c.tc : Thread nD τ).loc main_arg4))
    (fun j => (m ((c.tc : Thread nD τ).loc main_arg3) : S128.Idx → EReal) (ix1 j))
    (fun j => (m ((c.tc : Thread nD τ).loc main_arg5) : S128.Idx → EReal) (ix1 j))
    (fun j => (m ((c.tc : Thread nD τ).loc main_arg6) : S128.Idx → EReal) (ix1 j))
    (V_main_arg0 m c) (Cert.EntryArrays.mean_eq m c) (V_main_arg2 m c) (V_main_arg4 m c)
    (Cert.EntryArrays.bias_row m c) (Cert.EntryArrays.scale_row m c) (Cert.EntryArrays.shift_row m c) r q).symm

end Cert.Bridge

end
-- ==== Proof.lean ====
/-
  A graph layer: each node's features are combined with the mean of its in-neighbours' features, normalized per node,
  and cut at zero.

  Both programs first form, with the same host operations, the neighbour mean `A`: the feature rows gathered at the
  edges' sources, summed into the edges' targets, over the targets' edge counts raised to at least one.  The kernel then
  runs ten grid points over blocks of 5000 nodes; each forms  H = (A · W_lᵀ + b_l) + X · W_rᵀ  on its rows (products
  contracted over the last axis of both factors, into zero), each row's mean and variance over its 128 features, the
  centred row times the inverse square root of the variance plus the word of 1e-5, the per-feature scale and shift, and the
  maximum with zero.  The reference does the same on all 50000 rows at once with the transposed weights.  On the extended
  reals the changes of float format are the identity, a product into zero and a host product are the same sum over the
  contracted axis, a lane sum from zero and a host sum from zero are the same sum, and every other operation is the same
  one in the same order: index by index the two results are one function of the arguments (`NodeUpdate.rowOut` of the
  node's own two rows), with no law of arithmetic beyond `0 + s = s` and so no use of the inputs' finiteness.

  The kernel's result array is read off its run block by block (KernelRow, KernelBlocks), the reference's off its run
  stage by stage (RefRow); the neighbour mean is carried as one opaque function of the features and the edge list
  (EntryArrays); Bridge joins the two.  Each frame is the program's run with the result dropped; the idealization
  rewrote nothing, so there is nothing to preserve.
-/
import proofs.«180046_j13597866459873_1_alg».proof.Defs
import proofs.«180046_j13597866459873_1_alg».proof.Proof.Gen.Kernel
import proofs.«180046_j13597866459873_1_alg».proof.Proof.Gen.Kernel.Skeleton
import proofs.«180046_j13597866459873_1_alg».proof.Proof.Gen.Kernel.Launch
import proofs.«180046_j13597866459873_1_alg».proof.Proof.Gen.Kernel.Points
import proofs.«180046_j13597866459873_1_alg».proof.Proof.Gen.Kernel.Frame
import proofs.«180046_j13597866459873_1_alg».proof.Proof.Gen.KernelIdeal
import proofs.«180046_j13597866459873_1_alg».proof.Proof.Gen.KernelIdeal.Skeleton
import proofs.«180046_j13597866459873_1_alg».proof.Proof.Gen.KernelIdeal.Launch
import proofs.«180046_j13597866459873_1_alg».proof.Proof.Gen.KernelIdeal.Points
import proofs.«180046_j13597866459873_1_alg».proof.Proof.Gen.KernelIdeal.Frame
import proofs.«180046_j13597866459873_1_alg».proof.Proof.Gen.ReferenceIdeal
import proofs.«180046_j13597866459873_1_alg».proof.Proof.Gen.Pre_finite_inputs
import proofs.«180046_j13597866459873_1_alg».proof.Proof.Gen.KernelIdeal.Value
import proofs.«180046_j13597866459873_1_alg».proof.Proof.Gen.ReferenceIdeal.Run
import proofs.«180046_j13597866459873_1_alg».proof.Proof.Gen.ReferenceIdeal.Read
import proofs.«180046_j13597866459873_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at the layer's output of the arrays its
    region finds, and the reference's at its last stage of the same arguments: one array. -/
theorem algebraic : Cert.algebraic_KernelIdeal_ReferenceIdeal := by
  intro m ρ m' ρ' _ hagree
  refine ⟨fun c => Cert.KernelBlocks.entry m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v55 m' c = Cert.KernelBlocks.entry m c
  obtain ⟨a0, a1, a2, a3, a4, a5, a6⟩ := hagree c
  rw [Cert.ReferenceIdeal.Read.val_main_v55_eq, a0, a1, a2, a3, a4, a5, a6]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
